-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x2048 : Shape := ⟨3, ![2048, 4, 2048]⟩
abbrev S16x2048 : Shape := ⟨2, ![16, 2048]⟩
abbrev S16 : Shape := ⟨1, ![16]⟩
abbrev S_ : Shape := ⟨0, ![]⟩

class Facts : Prop where
  bcast_S_S2048x4x2048 : S_.BroadcastsInDim S2048x4x2048 (![] : Fin 0 → Fin S2048x4x2048.rank)
  reducesTo_S2048x4x2048_S_d0_1_2 : S2048x4x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2048x4x2048 .f32) (main_arg1 : FVec F S16x2048 .f32) (main_arg2 : FVec F S16 .f32) : IVec S_ 1 :=
  let main_v0 : FVec F S2048x4x2048 .f32 := Host.absf main_arg0
  let main_cst : FVec F S_ .f32 := constant S_ .f32 0x7F800000#32
  let main_v1 : FVec F S2048x4x2048 .f32 := broadcastInDim S2048x4x2048 ![] bcast_S_S2048x4x2048 main_cst
  let main_v2 : IVec S2048x4x2048 1 := cmpf .olt main_v0 main_v1
  let main_c : IVec S_ 1 := constantI S_ 1 1#1
  let main_v3 : IVec S_ 1 := (fun x v => Host.reduce IntOp.andi x v reducesTo_S2048x4x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S2048x4x2048 : Shape := ⟨3, ![2048, 4, 2048]⟩
abbrev S16x2048 : Shape := ⟨2, ![16, 2048]⟩
abbrev S16 : Shape := ⟨1, ![16]⟩
abbrev S1x16 : Shape := ⟨2, ![1, 16]⟩
abbrev S2048x4x16 : Shape := ⟨3, ![2048, 4, 16]⟩
abbrev S256x4x2048 : Shape := ⟨3, ![256, 4, 2048]⟩
abbrev S256x4x16 : Shape := ⟨3, ![256, 4, 16]⟩
abbrev S256x1x2048 : Shape := ⟨3, ![256, 1, 2048]⟩
abbrev S256x2048 : Shape := ⟨2, ![256, 2048]⟩
abbrev S256x16 : Shape := ⟨2, ![256, 16]⟩
abbrev S256 : Shape := ⟨1, ![256]⟩
abbrev S256x1 : Shape := ⟨2, ![256, 1]⟩
abbrev S256x1x16 : Shape := ⟨3, ![256, 1, 16]⟩

abbrev nBuf : Space → Nat
  | .hbm => 5
  | .vmem => 6
  | .smem => 0
  | _ => 0

abbrev bufTy : (tb : Table) → Fin (tcTables nBuf tb) → BufTy
  | .hbm, ⟨0, _⟩ => ⟨S2048x4x2048, .f32⟩
  | .hbm, ⟨1, _⟩ => ⟨S16x2048, .f32⟩
  | .hbm, ⟨2, _⟩ => ⟨S16, .f32⟩
  | .hbm, ⟨3, _⟩ => ⟨S1x16, .f32⟩
  | .hbm, ⟨4, _⟩ => ⟨S2048x4x16, .f32⟩
  | .local _ .vmem, ⟨0, _⟩ => ⟨S256x4x2048, .f32⟩
  | .local _ .vmem, ⟨1, _⟩ => ⟨S256x4x2048, .f32⟩
  | .local _ .vmem, ⟨2, _⟩ => ⟨S16x2048, .f32⟩
  | .local _ .vmem, ⟨3, _⟩ => ⟨S1x16, .f32⟩
  | .local _ .vmem, ⟨4, _⟩ => ⟨S256x4x16, .f32⟩
  | .local _ .vmem, ⟨5, _⟩ => ⟨S256x4x16, .f32⟩
  | _, _ => ⟨S2048x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16_S1x16 : S16.ShapeCasts S1x16
  inb_S16x2048_S16x2048_0_0 : ∀ a, (![0, 0] : Fin 2 → Nat) a + S16x2048.size a ≤ S16x2048.size a
  h_S16x2048 : 0 < S16x2048.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S256x4x2048_S256x1x2048_0_0_0 : ∀ a, (![0, 0, 0] : Fin 3 → Nat) a + S256x1x2048.size a ≤ S256x4x2048.size a
  h_S256x1x2048 : 0 < S256x1x2048.numel
  shapeCasts_S256x1x2048_S256x2048 : S256x1x2048.ShapeCasts S256x2048
  broadcasts_S1x16_S256x16 : S1x16.Broadcasts S256x16
  reduces_S256x16_S256 : S256x16.Reduces [1] S256
  shapeCasts_S256_S256x1 : S256.ShapeCasts S256x1
  broadcasts_S256x1_S256x16 : S256x1.Broadcasts S256x16
  inb_S256x4x16_S256x1x16_0_0_0 : ∀ a, (![0, 0, 0] : Fin 3 → Nat) a + S256x1x16.size a ≤ S256x4x16.size a
  h_S256x1x16 : 0 < S256x1x16.numel
  shapeCasts_S256x1x16_S256x16 : S256x1x16.ShapeCasts S256x16
  shapeCasts_S256x16_S256x1x16 : S256x16.ShapeCasts S256x1x16
  inb_S256x4x2048_S256x1x2048_0_1_0 : ∀ a, (![0, 1, 0] : Fin 3 → Nat) a + S256x1x2048.size a ≤ S256x4x2048.size a
  inb_S256x4x16_S256x1x16_0_1_0 : ∀ a, (![0, 1, 0] : Fin 3 → Nat) a + S256x1x16.size a ≤ S256x4x16.size a
  inb_S256x4x2048_S256x1x2048_0_2_0 : ∀ a, (![0, 2, 0] : Fin 3 → Nat) a + S256x1x2048.size a ≤ S256x4x2048.size a
  inb_S256x4x16_S256x1x16_0_2_0 : ∀ a, (![0, 2, 0] : Fin 3 → Nat) a + S256x1x16.size a ≤ S256x4x16.size a
  inb_S256x4x2048_S256x1x2048_0_3_0 : ∀ a, (![0, 3, 0] : Fin 3 → Nat) a + S256x1x2048.size a ≤ S256x4x2048.size a
  inb_S256x4x16_S256x1x16_0_3_0 : ∀ a, (![0, 3, 0] : Fin 3 → Nat) a + S256x1x16.size a ≤ S256x4x16.size a
  dot_S256x2048_S16x2048_S256x16_1_1_0_0_n_n_wf : DotDims.WF S256x2048 S16x2048 S256x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4x2048.size a ≤ S2048x4x2048.size a
  hwx0_0 : ∀ i : grid0.Coords, EltTy.bits .f32 = 32 ∨ (Rect.block (s := S2048x4x2048) S256x4x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4x16.size a ≤ S2048x4x16.size a
  hwx0_3 : ∀ i : grid0.Coords, EltTy.bits .f32 = 32 ∨ (Rect.block (s := S2048x4x16) S256x4x16.size (cc0_transform_3 i) (hinb0_3 i)).WholeWords (EltTy.packing .f32)

variable [Facts₀]

def dot_S256x2048_S16x2048_S256x16_1_1_0_0_n_n : DotDims S256x2048 S16x2048 S256x16 where
  lhsContracting := [1]
  rhsContracting := [1]
  lhsNonContracting := [0]
  rhsNonContracting := [0]
  lhsBatch := []
  rhsBatch := []
  wf := dot_S256x2048_S16x2048_S256x16_1_1_0_0_n_n_wf

abbrev win0_0 : Pipeline.Window sig grid0 :=
  Pipeline.Window.ofSpec (Memref.whole main_arg0) S256x4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4x2048 : Shape := ⟨3, ![2048, 4, 2048]⟩
abbrev S16x2048 : Shape := ⟨2, ![16, 2048]⟩
abbrev S16 : Shape := ⟨1, ![16]⟩
abbrev S8192x2048 : Shape := ⟨2, ![8192, 2048]⟩
abbrev S2048x16 : Shape := ⟨2, ![2048, 16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S2048x4x16 : Shape := ⟨3, ![2048, 4, 16]⟩

abbrev nBuf : Space → Nat
  | .hbm => 24
  | .vmem => 0
  | .smem => 0
  | _ => 0

abbrev bufTy : (tb : Table) → Fin (tcTables nBuf tb) → BufTy
  | .hbm, ⟨0, _⟩ => ⟨S2048x4x2048, .f32⟩
  | .hbm, ⟨1, _⟩ => ⟨S16x2048, .f32⟩
  | .hbm, ⟨2, _⟩ => ⟨S16, .f32⟩
  | .hbm, ⟨3, _⟩ => ⟨S8192x2048, .f32⟩
  | .hbm, ⟨4, _⟩ => ⟨S2048x16, .f32⟩
  | .hbm, ⟨5, _⟩ => ⟨S8192x16, .f32⟩
  | .hbm, ⟨6, _⟩ => ⟨S1x16, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x16, .f32⟩
  | .hbm, ⟨22, _⟩ => ⟨S8192x16, .f32⟩
  | .hbm, ⟨23, _⟩ => ⟨S2048x4x16, .f32⟩
  | _, _ => ⟨S2048x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S2048x4x2048_S8192x2048 : S2048x4x2048.ShapeCasts S8192x2048
  transposes_S16x2048_S2048x16_1_0 : S16x2048.Transposes [1, 0] S2048x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  shapeCasts_S8192x16_S2048x4x16 : S8192x16.ShapeCasts S2048x4x16
  dot_S8192x2048_S2048x16_S8192x16_1_0_0_1_n_n_wf : DotDims.WF S8192x2048 S2048x16 S8192x16 [1] [0] [0] [1] [] []

variable [Facts₀]

def dot_S8192x2048_S2048x16_S8192x16_1_0_0_1_n_n : DotDims S8192x2048 S2048x16 S8192x16 where
  lhsContracting := [1]
  rhsContracting := [0]
  lhsNonContracting := [0]
  rhsNonContracting := [1]
  lhsBatch := []
  rhsBatch := []
  wf := dot_S8192x2048_S2048x16_S8192x16_1_0_0_1_n_n_wf

class Facts : Prop extends Facts₀ where

variable [Facts]
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.Softmax.lean ====
/-
  The gating layer, as one function of its three argument arrays.

  For token `t`, batch slot `s` and expert `e` the score is the inner product of the token's 2048 features with
  expert `e`'s weight row, plus the expert's bias:
      score t s e = (∑ k, x[t, s, k] · W[e, k]) + b[e].
  The gate is the softmax of the sixteen scores of (t, s), computed the stable way: with `M` the maximum of the
  sixteen scores (folded from the initial value `lo`),
      gate[t, s, e] = exp (score e − M) / ∑ j, exp (score j − M).
  Everything is on the extended reals: the sum and the maximum are order-free there, so neither side's blocking of
  the 2048-term inner product nor its order of the sixteen terms is visible in this function.
-/
import Idealize.ShloMosaic.Lib.ValueIdx
import Idealize.ShloMosaic.PureOps.Ideal

noncomputable section

namespace Gate

open Idealize.ShloMosaic Idealize.ShloMosaic.ValueIdx

/-- The score of expert `e` for token `t` in batch slot `s`. -/
def score (x : (⟨3, ![2048, 4, 2048]⟩ : Shape).Idx → EReal) (W : (⟨2, ![16, 2048]⟩ : Shape).Idx → EReal)
    (b : (⟨1, ![16]⟩ : Shape).Idx → EReal) (t : Fin 2048) (s : Fin 4) (e : Fin 16) : EReal :=
  (∑ k : Fin 2048, x (ix3 t s k) * W (ix2 e k)) + b (ix1 e)

/-- The softmax of a row `z` at `e`, shifted by the row's maximum folded from `lo`. -/
def softmaxRow {n : ℕ} (lo : EReal) (z : Fin n → EReal) (e : Fin n) : EReal :=
  Ideal.div (Ideal.exp (z e - Finset.univ.fold max lo z)) (∑ j : Fin n, Ideal.exp (z j - Finset.univ.fold max lo z))

/-- The value the maximum is folded from: the f32 pattern of −∞, kept as its word. -/
abbrev lo : EReal := Ideal.ofBits .f32 0xFF800000#32

/-- The whole result array. -/
def gate (x : (⟨3, ![2048, 4, 2048]⟩ : Shape).Idx → EReal) (W : (⟨2, ![16, 2048]⟩ : Shape).Idx → EReal)
    (b : (⟨1, ![16]⟩ : Shape).Idx → EReal) : (⟨3, ![2048, 4, 16]⟩ : Shape).Idx → EReal :=
  fun i => softmaxRow lo (score x W b (i 0) (i 1)) (i 2)

theorem gate_ix3 (x : (⟨3, ![2048, 4, 2048]⟩ : Shape).Idx → EReal) (W : (⟨2, ![16, 2048]⟩ : Shape).Idx → EReal)
    (b : (⟨1, ![16]⟩ : Shape).Idx → EReal) (t : Fin 2048) (s : Fin 4) (e : Fin 16) :
    gate x W b (ix3 t s e) = softmaxRow lo (score x W b t s) e := rfl

end Gate

end
-- ==== Proof.TileSoftmax.lean ====
/-
  One batch slice of a tile, at an index.

  At a grid point the body handles a tile of 256 tokens. For each of the four batch slots it loads the tokens'
  [256, 1, 2048] slice `xs`, multiplies it with the weights `w` [16, 2048] over the 2048 features, adds the bias row
  `b1` [1, 16], and normalises each of the 256 rows of sixteen scores by the shifted softmax. The four stored values
  are the SAME function of (w, b1, xs); only the slice differs. Read at (p, u, e) that function is
      softmax of the row  j ↦ (∑ k, xs[p, 0, k] · w[j, k]) + b1[0, j]   at e:
  the matrix product into a zero accumulator is the plain sum over the contraction index, the bias row is read at
  column j whatever the row, the row maximum and the row sum are kept as columns and broadcast back over the row,
  and the views [256, 1, 2048] → [256, 2048] and [256, 16] → [256, 1, 16] move no element.
-/
import proofs.«116019_g36215164240929_cont_8to1_b_1734_13_alg».proof.Proof.Gen.KernelIdeal.Skeleton
import proofs.«116019_g36215164240929_cont_8to1_b_1734_13_alg».proof.Proof.LibRowOps
import proofs.«116019_g36215164240929_cont_8to1_b_1734_13_alg».proof.Proof.Softmax
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The stored value as one function -/

section AnyInstance
variable {F : FTy → Type} [FloatOps F]

/-- The 256 × 16 scores of a slice: the product with the weights over the features, plus the bias row. -/
def sliceScores (w : Vec F S16x2048 .f32) (b1 : Vec F S1x16 .f32) (xs : Vec F S256x1x2048 .f32) : FVec F S256x16 .f32 :=
  addf (matmul dot_S256x2048_S16x2048_S256x16_1_1_0_0_n_n none (shapeCast S256x2048 xs shapeCasts_S256x1x2048_S256x2048) w
      (constant S256x16 .f32 0x00000000#32))
    (broadcastTo S256x16 (shapeCast S1x16 b1 shapeCasts_S1x16_S1x16) broadcasts_S1x16_S256x16)

/-- Each row's maximum, as a column broadcast back over the row. -/
def rowMaxOver (z : FVec F S256x16 .f32) : FVec F S256x16 .f32 :=
  broadcastTo S256x16 (shapeCast S256x1 (multiReduction .maximumf [1] S256 z 0xFF800000#32 reduces_S256x16_S256 (.inl rfl) rfl)
    shapeCasts_S256_S256x1) broadcasts_S256x1_S256x16

/-- Each row's sum, as a column broadcast back over the row. -/
def rowSumOver (z : FVec F S256x16 .f32) : FVec F S256x16 .f32 :=
  broadcastTo S256x16 (shapeCast S256x1 (multiReduction .add [1] S256 z 0x00000000#32 reduces_S256x16_S256 (.inl rfl) rfl)
    shapeCasts_S256_S256x1) broadcasts_S256x1_S256x16

/-- The shifted softmax of every row. -/
def rowSoftmax (z : FVec F S256x16 .f32) : FVec F S256x16 .f32 :=
  divf (exp (subf z (rowMaxOver z))) (rowSumOver (exp (subf z (rowMaxOver z))))

/-- What the body stores for a slice. -/
def sliceGate (w : Vec F S16x2048 .f32) (b1 : Vec F S1x16 .f32) (xs : Vec F S256x1x2048 .f32) : FVec F S256x1x16 .f32 :=
  shapeCast S256x1x16 (rowSoftmax (sliceScores w b1 xs)) shapeCasts_S256x16_S256x1x16

/-- The four stored values are this one function of their slice. -/
theorem pay5_eq (w : Vec F S16x2048 .f32) (b1 : Vec F S1x16 .f32) (xs : Vec F S256x1x2048 .f32) :
    k0_pay5 w b1 xs = sliceGate w b1 xs := rfl
theorem pay1_pay6_eq (w : Vec F S16x2048 .f32) (b1 : Vec F S1x16 .f32) (xs : Vec F S256x1x2048 .f32) :
    k0_pay1 (k0_pay6 w b1 xs) = sliceGate w b1 xs := rfl
theorem pay2_eq (w : Vec F S16x2048 .f32) (b1 : Vec F S1x16 .f32) (xs : Vec F S256x1x2048 .f32) :
    k0_pay2 w (k0_pay4 b1) xs = sliceGate w b1 xs := rfl
theorem pay3_eq (w : Vec F S16x2048 .f32) (b1 : Vec F S1x16 .f32) (xs : Vec F S256x1x2048 .f32) :
    k0_pay3 w (k0_pay4 b1) xs = sliceGate w b1 xs := rfl

end AnyInstance

/-! ## The matrix product at an index -/

theorem lhs_axis0 (i : S256x16.Idx) (q : dot_S256x2048_S16x2048_S256x16_1_1_0_0_n_n.contr.Idx) :
    (dot_S256x2048_S16x2048_S256x16_1_1_0_0_n_n.lhsIdx i q 0).val = (i 0).val := by
  unfold DotDims.lhsIdx
  rw [dif_neg (show ¬(0 : Fin S256x2048.rank) ∈ dot_S256x2048_S16x2048_S256x16_1_1_0_0_n_n.lhsBatch by decide), dif_pos (show (0 : Fin S256x2048.rank) ∈ dot_S256x2048_S16x2048_S256x16_1_1_0_0_n_n.lhsNonContracting by decide)]
  rfl
theorem lhs_axis1 (i : S256x16.Idx) (q : dot_S256x2048_S16x2048_S256x16_1_1_0_0_n_n.contr.Idx) :
    (dot_S256x2048_S16x2048_S256x16_1_1_0_0_n_n.lhsIdx i q 1).val = (q ⟨0, by decide⟩).val :=
  dot_S256x2048_S16x2048_S256x16_1_1_0_0_n_n.lhsIdx_val_of_single rfl i q
theorem rhs_axis0 (i : S256x16.Idx) (q : dot_S256x2048_S16x2048_S256x16_1_1_0_0_n_n.contr.Idx) :
    (dot_S256x2048_S16x2048_S256x16_1_1_0_0_n_n.rhsIdx i q 0).val = (i 1).val := by
  unfold DotDims.rhsIdx
  rw [dif_neg (show ¬(0 : Fin S16x2048.rank) ∈ dot_S256x2048_S16x2048_S256x16_1_1_0_0_n_n.rhsBatch by decide), dif_pos (show (0 : Fin S16x2048.rank) ∈ dot_S256x2048_S16x2048_S256x16_1_1_0_0_n_n.rhsNonContracting by decide)]
  rfl
theorem rhs_axis1 (i : S256x16.Idx) (q : dot_S256x2048_S16x2048_S256x16_1_1_0_0_n_n.contr.Idx) :
    (dot_S256x2048_S16x2048_S256x16_1_1_0_0_n_n.rhsIdx i q 1).val = (q ⟨0, by decide⟩).val :=
  dot_S256x2048_S16x2048_S256x16_1_1_0_0_n_n.rhsIdx_val_of_single rfl i q

/-- Into the zero accumulator, entry (p, j) of the product is the sum over the feature index of row p of the left
    operand times row j of the right one: both operands are contracted along their second axis. -/
theorem matmul_apply (a : FVec Ideal S256x2048 .f32) (w : FVec Ideal S16x2048 .f32) (p : Fin 256) (j : Fin 16) :
    matmul dot_S256x2048_S16x2048_S256x16_1_1_0_0_n_n none a w (constant (F := Ideal) S256x16 .f32 0x00000000#32) (ix2 p j)
      = ∑ k : Fin 2048, a (ix2 p k) * w (ix2 j k) := by
  simp only [matmul]
  rw [Ideal.matmul_constant_zero_apply, ← Equiv.sum_comp (ValueIdx.contrEquiv1 dot_S256x2048_S16x2048_S256x16_1_1_0_0_n_n 2048 rfl rfl).symm]
  refine Finset.sum_congr rfl fun k _ => ?_
  have hk := ValueIdx.contrEquiv1_symm_val dot_S256x2048_S16x2048_S256x16_1_1_0_0_n_n 2048 rfl rfl k
  have el : dot_S256x2048_S16x2048_S256x16_1_1_0_0_n_n.lhsIdx (ix2 p j) ((ValueIdx.contrEquiv1 dot_S256x2048_S16x2048_S256x16_1_1_0_0_n_n 2048 rfl rfl).symm k) = ix2 p k := funext fun ax => Fin.ext (by
    match ax with
    | ⟨0, _⟩ => exact lhs_axis0 _ _
    | ⟨1, _⟩ => exact (lhs_axis1 _ _).trans hk)
  have er : dot_S256x2048_S16x2048_S256x16_1_1_0_0_n_n.rhsIdx (ix2 p j) ((ValueIdx.contrEquiv1 dot_S256x2048_S16x2048_S256x16_1_1_0_0_n_n 2048 rfl rfl).symm k) = ix2 j k := funext fun ax => Fin.ext (by
    match ax with
    | ⟨0, _⟩ => exact rhs_axis0 _ _
    | ⟨1, _⟩ => exact (rhs_axis1 _ _).trans hk)
  rw [el, er]

/-! ## The scores and the softmax at an index -/

/-- Score (p, j) of a slice: token p's features against expert j's weights, plus expert j's bias. -/
theorem sliceScores_apply (w : Vec Ideal S16x2048 .f32) (b1 : Vec Ideal S1x16 .f32) (xs : Vec Ideal S256x1x2048 .f32)
    (p : Fin 256) (j : Fin 16) :
    sliceScores (F := Ideal) w b1 xs (ix2 p j)
      = (∑ k : Fin 2048, xs (ix3 p (0 : Fin 1) k) * w (ix2 j k)) + b1 (ix2 (0 : Fin 1) j) := by
  unfold sliceScores
  show matmul dot_S256x2048_S16x2048_S256x16_1_1_0_0_n_n none (shapeCast S256x2048 xs shapeCasts_S256x1x2048_S256x2048) w
      (constant (F := Ideal) S256x16 .f32 0x00000000#32) (ix2 p j)
    + broadcastTo S256x16 (shapeCast S1x16 b1 shapeCasts_S1x16_S1x16) broadcasts_S1x16_S256x16 (ix2 p j) = _
  rw [matmul_apply, broadcastTo_1b_ab_apply, shapeCast_self]
  exact congrArg (· + b1 (ix2 (0 : Fin 1) j)) (Finset.sum_congr rfl fun k _ =>
    congrArg (· * w (ix2 j k)) (RowOps.shapeCast_a1b_ab_apply xs shapeCasts_S256x1x2048_S256x2048 p k))

/-- A row reduction kept as a column and broadcast back reads, at (p, c), the reduction's entry p. -/
theorem colOver_apply (r : FVec Ideal S256 .f32) (p : Fin 256) (c : Fin 16) :
    broadcastTo S256x16 (shapeCast S256x1 r shapeCasts_S256_S256x1) broadcasts_S256x1_S256x16 (ix2 p c) = r (ix1 p) :=
  (RowOps.broadcastTo_a1_ab_apply _ broadcasts_S256x1_S256x16 p c).trans
    (RowOps.shapeCast_a_a1_apply r shapeCasts_S256_S256x1 p (0 : Fin 1))

theorem rowMaxOver_apply (z : FVec Ideal S256x16 .f32) (p : Fin 256) (c : Fin 16) :
    rowMaxOver (F := Ideal) z (ix2 p c) = Finset.univ.fold max Gate.lo (fun j : Fin 16 => z (ix2 p j)) :=
  (colOver_apply _ p c).trans (RowOps.multiReduction_max_row z _ reduces_S256x16_S256 (.inl rfl) rfl p)

theorem rowSumOver_apply (z : FVec Ideal S256x16 .f32) (p : Fin 256) (c : Fin 16) :
    rowSumOver (F := Ideal) z (ix2 p c) = ∑ j : Fin 16, z (ix2 p j) :=
  (colOver_apply _ p c).trans (RowOps.multiReduction_add_row z _ reduces_S256x16_S256 (.inl rfl) rfl p)

/-- Row p of the normalised scores is the softmax of row p of the scores. -/
theorem rowSoftmax_apply (z : FVec Ideal S256x16 .f32) (p : Fin 256) (e : Fin 16) :
    rowSoftmax (F := Ideal) z (ix2 p e) = Gate.softmaxRow Gate.lo (fun j : Fin 16 => z (ix2 p j)) e := by
  unfold rowSoftmax Gate.softmaxRow
  show Ideal.div (Ideal.exp (z (ix2 p e) - rowMaxOver (F := Ideal) z (ix2 p e)))
      (rowSumOver (F := Ideal) (exp (subf z (rowMaxOver z))) (ix2 p e)) = _
  rw [rowSumOver_apply, rowMaxOver_apply]
  refine congrArg (Ideal.div _) (Finset.sum_congr rfl fun j _ => ?_)
  show Ideal.exp (z (ix2 p j) - rowMaxOver (F := Ideal) z (ix2 p j)) = _
  rw [rowMaxOver_apply]

/-- THE STORED VALUE AT AN INDEX: the gate of token p of the slice for expert e. -/
theorem sliceGate_apply (w : Vec Ideal S16x2048 .f32) (b1 : Vec Ideal S1x16 .f32) (xs : Vec Ideal S256x1x2048 .f32)
    (p : Fin 256) (u : Fin 1) (e : Fin 16) :
    sliceGate (F := Ideal) w b1 xs (ix3 p u e)
      = Gate.softmaxRow Gate.lo
          (fun j : Fin 16 => (∑ k : Fin 2048, xs (ix3 p (0 : Fin 1) k) * w (ix2 j k)) + b1 (ix2 (0 : Fin 1) j)) e := by
  unfold sliceGate
  refine (RowOps.shapeCast_ab_a1b_apply _ shapeCasts_S256x16_S256x1x16 p u e).trans ?_
  rw [rowSoftmax_apply]
  exact congrArg (fun z => Gate.softmaxRow Gate.lo z e) (funext fun j => sliceScores_apply w b1 xs p j)

end Cert.KernelIdeal.Tile

end
-- ==== Proof.TileGate.lean ====
/-
  A whole tile: the four batch slots together.

  The body writes its [256, 4, 16] output block as four pieces, one per batch slot s: piece s is the slice
  [256, 1, 16] at offset (0, s, 0), computed from the slice [256, 1, 2048] of the input block at the same offset. Each
  piece, read at its local index (p, 0, e), is the gate of token p of the block in slot s for expert e — the same
  function of the block index (p, s, e) for every piece. The four pieces tile the block, so the block after the
  body IS that function:
      tileGate x0 x1 x2 (p, s, e) = softmax of  j ↦ (∑ k, x0[p, s, k] · x1[j, k]) + x2[0, j]  at e.
-/
import proofs.«116019_g36215164240929_cont_8to1_b_1734_13_alg».proof.Proof.Gen.KernelIdeal.Frame
import proofs.«116019_g36215164240929_cont_8to1_b_1734_13_alg».proof.Proof.TileSoftmax
import Idealize.ShloMosaic.Lib.Pipeline.Value

set_option maxRecDepth 16384

noncomputable section

namespace Cert.KernelIdeal.Tile

open Cert.KernelIdeal Cert.KernelIdeal.Gen Idealize.ShloMosaic Idealize.ShloMosaic.ValueIdx

/-- The gates of one tile, from the tile's block of tokens `x0`, the weights `x1` and the bias row `x2`. -/
def tileGate (x0 : Vec Ideal S256x4x2048 .f32) (x1 : Vec Ideal S16x2048 .f32) (x2 : Vec Ideal S1x16 .f32) :
    Vec Ideal S256x4x16 .f32 :=
  fun y => Gate.softmaxRow Gate.lo
    (fun j : Fin 16 => (∑ k : Fin 2048, x0 (ix3 (y 0) (y 1) k) * x1 (ix2 j k)) + x2 (ix2 (0 : Fin 1) j)) (y 2)

theorem tileGate_ix3 (x0 : Vec Ideal S256x4x2048 .f32) (x1 : Vec Ideal S16x2048 .f32) (x2 : Vec Ideal S1x16 .f32)
    (p : Fin 256) (s : Fin 4) (e : Fin 16) :
    tileGate x0 x1 x2 (ix3 p s e) = Gate.softmaxRow Gate.lo
      (fun j : Fin 16 => (∑ k : Fin 2048, x0 (ix3 p s k) * x1 (ix2 j k)) + x2 (ix2 (0 : Fin 1) j)) e := rfl

theorem zeros2 : (![0, 0] : Fin 2 → Nat) = fun _ => 0 := funext fun a => by fin_cases a <;> rfl

/-- The piece of batch slot `o`: the slice's gate at its local index is the tile's gate at the index the piece's
    rectangle puts it at. -/
theorem slot_piece (x0 : Vec Ideal S256x4x2048 .f32) (x1 : Vec Ideal S16x2048 .f32) (x2 : Vec Ideal S1x16 .f32)
    (o : Nat) (ho : o < 4)
    (inbx : ∀ a, (![0, o, 0] : Fin 3 → Nat) a + S256x1x2048.size a ≤ S256x4x2048.size a)
    (inbo : ∀ a, (![0, o, 0] : Fin 3 → Nat) a + S256x1x16.size a ≤ S256x4x16.size a)
    (x : S256x1x16.Idx) :
    sliceGate (F := Ideal) (View.ld x1 r0_0) (View.ld x2 r0_1)
        (View.ld x0 (Rect.unit (s := S256x4x2048) ![0, o, 0] S256x1x2048.size inbx)) x
      = tileGate x0 x1 x2 ((Rect.unit (s := S256x4x16) ![0, o, 0] S256x1x16.size inbo).emb x) := by
  obtain ⟨p, u, e, rfl⟩ : ∃ (p : Fin 256) (u : Fin 1) (e : Fin 16), x = ix3 p u e := ⟨x 0, x 1, x 2, eq_ix3 x⟩
  have hu : u.val = 0 := by omega
  have hemb : (Rect.unit (s := S256x4x16) ![0, o, 0] S256x1x16.size inbo).emb (ix3 p u e) = ix3 p (⟨o, ho⟩ : Fin 4) e :=
    funext fun a => Fin.ext (by
      match a with
      | ⟨0, _⟩ => show 0 + 1 * p.val = p.val; omega
      | ⟨1, _⟩ => show o + 1 * u.val = o; omega
      | ⟨2, _⟩ => show 0 + 1 * e.val = e.val; omega)
  rw [hemb, tileGate_ix3]
  refine (sliceGate_apply _ _ _ p u e).trans (congrArg (fun z => Gate.softmaxRow Gate.lo z e) (funext fun j => ?_))
  have h1 : ∀ k : Fin 2048, View.ld x1 r0_0 (ix2 j k) = x1 (ix2 j k) := fun k =>
    congrFun (View.ld_unit_zero (S := S16x2048) zeros2 _ x1) _
  have h2 : View.ld x2 r0_1 (ix2 (0 : Fin 1) j) = x2 (ix2 (0 : Fin 1) j) :=
    congrFun (View.ld_unit_zero (S := S1x16) zeros2 _ x2) _
  have h0 : ∀ k : Fin 2048, View.ld x0 (Rect.unit (s := S256x4x2048) ![0, o, 0] S256x1x2048.size inbx) (ix3 p (0 : Fin 1) k)
      = x0 (ix3 p (⟨o, ho⟩ : Fin 4) k) := fun k =>
    congrArg x0 (funext fun a => Fin.ext (by
      match a with
      | ⟨0, _⟩ => show 0 + 1 * p.val = p.val; omega
      | ⟨1, _⟩ => show o + 1 * 0 = o; omega
      | ⟨2, _⟩ => show 0 + 1 * k.val = k.val; omega))
  rw [h2]
  exact congrArg (· + x2 (ix2 (0 : Fin 1) j)) (Finset.sum_congr rfl fun k _ => by rw [h0 k, h1 k])

/-- THE BLOCK AFTER THE BODY is the tile's gate: the four stored pieces are its four batch slots, and they tile the
    block. -/
theorem out_eq (x0 : Vec Ideal S256x4x2048 .f32) (x1 : Vec Ideal S16x2048 .f32) (x2 : Vec Ideal S1x16 .f32) :
    out0_3 (F := Ideal) x0 x1 x2 = tileGate x0 x1 x2 := by
  funext y
  unfold out0_3
  refine View.canon_apply_of_pieces (tileGate x0 x1 x2) _ ?_ y (cover0_3 _ _ _ _ y)
  intro pc hpc x
  simp only [List.mem_cons, List.not_mem_nil, or_false] at hpc
  rcases hpc with rfl | rfl | rfl | rfl
  · exact (congrFun (pay3_eq _ _ _) x).trans (slot_piece x0 x1 x2 3 (by decide) inb_S256x4x2048_S256x1x2048_0_3_0 inb_S256x4x16_S256x1x16_0_3_0 x)
  · exact (congrFun (pay2_eq _ _ _) x).trans (slot_piece x0 x1 x2 2 (by decide) inb_S256x4x2048_S256x1x2048_0_2_0 inb_S256x4x16_S256x1x16_0_2_0 x)
  · exact (congrFun (pay1_pay6_eq _ _ _) x).trans (slot_piece x0 x1 x2 1 (by decide) inb_S256x4x2048_S256x1x2048_0_1_0 inb_S256x4x16_S256x1x16_0_1_0 x)
  · exact (congrFun (pay5_eq _ _ _) x).trans (slot_piece x0 x1 x2 0 (by decide) inb_S256x4x2048_S256x1x2048_0_0_0 inb_S256x4x16_S256x1x16_0_0_0 x)

end Cert.KernelIdeal.Tile

end
-- ==== Proof.KernelGate.lean ====
/-
  The kernel's result array is the gate function of its arguments.

  Grid point t handles tokens 256·t … 256·t + 255. Its block of the tokens is rows 256·t + p of x (all four slots, all
  features), its blocks of the weights and of the bias row are the whole arrays (the bias row is the bias viewed
  [1, 16] by the host before the call), and the block it writes back is rows 256·t + p of the result. So what point t
  writes back — the tile's gate of its input blocks — is block t of ONE array, the gate function of the three
  arguments; the eight blocks cover the 2048 tokens (token r lies in block r / 256), so the result array ends
  holding that function.
-/
import proofs.«116019_g36215164240929_cont_8to1_b_1734_13_alg».proof.Proof.Gen.KernelIdeal.Value
import proofs.«116019_g36215164240929_cont_8to1_b_1734_13_alg».proof.Proof.TileGate
import Idealize.ShloMosaic.Lib.Pipeline.Value
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.Value Cert.KernelIdeal.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: the token block and the result block move with the point along the
    token axis, the weights and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Token `p` of point `t`'s tile. -/
def tok (t : Fin cfg0.N) (p : Fin 256) : Fin 2048 :=
  ⟨t.val * 256 + p.val, by have := t.isLt; have hN : cfg0.N = 8 := N_0; omega⟩

/-- The gate function of the three arguments as launched. -/
abbrev gateArr (c : Dev nD) : S2048x4x16.Idx → EReal :=
  Gate.gate (m ((c : Thread nD τ).loc main_arg0)) (m ((c : Thread nD τ).loc main_arg1)) (m ((c : Thread nD τ).loc main_arg2))

/-- Point `t`'s block of the tokens, at (p, s, k): token 256·t + p, slot s, feature k of the argument. -/
theorem xblk_apply (c : Dev nD) (t : Fin cfg0.N) (p : Fin 256) (s : Fin 4) (k : Fin 2048) :
    (iblk m c 0 t : Vec Ideal S256x4x2048 .f32) (ix3 p s k)
      = (m ((c : Thread nD τ).loc main_arg0) : S2048x4x2048.Idx → EReal) (ix3 (tok t p) s k) := by
  obtain ⟨e0, e1, e2, -⟩ := idx_facts t
  unfold iblk
  rw [View.read_apply]
  show V m c main_arg0 _ = _
  rw [V_main_arg0]
  refine congrArg _ (funext fun a => Fin.ext (by
    match a with
    | ⟨0, _⟩ => show win0_0.index t (0 : Fin 3) * 256 + 1 * p.val = t.val * 256 + p.val; rw [e0]; omega
    | ⟨1, _⟩ => show win0_0.index t (1 : Fin 3) * 4 + 1 * s.val = s.val; rw [e1]; omega
    | ⟨2, _⟩ => show win0_0.index t (2 : Fin 3) * 2048 + 1 * k.val = k.val; rw [e2]; omega))

/-- Its block of the weights is the weights. -/
theorem wblk_apply (c : Dev nD) (t : Fin cfg0.N) (j : Fin 16) (k : Fin 2048) :
    (iblk m c 1 t : Vec Ideal S16x2048 .f32) (ix2 j k)
      = (m ((c : Thread nD τ).loc main_arg1) : S16x2048.Idx → EReal) (ix2 j k) := by
  obtain ⟨-, -, -, e3, e4, -⟩ := idx_facts t
  unfold iblk
  rw [View.read_apply]
  show V m c main_arg1 _ = _
  rw [V_main_arg1]
  refine congrArg _ (funext fun a => Fin.ext (by
    match a with
    | ⟨0, _⟩ => show win0_1.index t (0 : Fin 2) * 16 + 1 * j.val = j.val; rw [e3]; omega
    | ⟨1, _⟩ => show win0_1.index t (1 : Fin 2) * 2048 + 1 * k.val = k.val; rw [e4]; omega))

/-- The bias row as the region finds it: the bias viewed [1, 16]. -/
theorem biasRow_eq (c : Dev nD) :
    (V m c main_v0 : S1x16.Idx → EReal) = shapeCast S1x16 (m ((c : Thread nD τ).loc main_arg2)) shapeCasts_S16_S1x16 := by
  dsimp only [Gen.V, Gen.hostOps0]; after_results; rfl

/-- Its block of the bias row, at (0, j), is the bias of expert j. -/
theorem bblk_apply (c : Dev nD) (t : Fin cfg0.N) (j : Fin 16) :
    (iblk m c 2 t : Vec Ideal S1x16 .f32) (ix2 (0 : Fin 1) j)
      = (m ((c : Thread nD τ).loc main_arg2) : S16.Idx → EReal) (ix1 j) := by
  obtain ⟨-, -, -, -, -, e5, e6, -⟩ := idx_facts t
  unfold iblk
  rw [View.read_apply]
  show V m c main_v0 _ = _
  rw [biasRow_eq]
  refine Eq.trans (congrArg _ (funext fun a => Fin.ext (by
    match a with
    | ⟨0, _⟩ => show win0_2.index t (0 : Fin 2) * 1 + 1 * 0 = 0; rw [e5]
    | ⟨1, _⟩ => show win0_2.index t (1 : Fin 2) * 16 + 1 * j.val = j.val; rw [e6]; omega)))
    (shapeCast_a_1a_apply _ shapeCasts_S16_S1x16 (0 : Fin 1) j)

/-- WHAT POINT `t` WRITES BACK is block `t` of the gate function of the arguments. -/
theorem flushed_eq (c : Dev nD) (t : Fin cfg0.N) :
    (dats m 0 c).flushed 3 t = ((cfg0.win 3).blk t).view.read (Elt Ideal) (gateArr m c) := by
  rw [flushed3, out_eq]
  obtain ⟨-, -, -, -, -, -, -, e7, e8, e9⟩ := idx_facts t
  funext y
  obtain ⟨p, s, e, rfl⟩ : ∃ (p : Fin 256) (s : Fin 4) (e : Fin 16), y = ix3 p s e := ⟨y 0, y 1, y 2, eq_ix3 y⟩
  show tileGate (iblk m c 0 t) (iblk m c 1 t) (iblk m c 2 t) (ix3 p s e)
    = gateArr m c (((cfg0.win 3).blk t).view.emb (ix3 p s e))
  have hemb : ((cfg0.win 3).blk t).view.emb (ix3 p s e) = ix3 (tok t p) s e := funext fun a => Fin.ext (by
    match a with
    | ⟨0, _⟩ => show win0_3.index t (0 : Fin 3) * 256 + 1 * p.val = t.val * 256 + p.val; rw [e7]; omega
    | ⟨1, _⟩ => show win0_3.index t (1 : Fin 3) * 4 + 1 * s.val = s.val; rw [e8]; omega
    | ⟨2, _⟩ => show win0_3.index t (2 : Fin 3) * 16 + 1 * e.val = e.val; rw [e9]; omega)
  rw [hemb, tileGate_ix3]
  refine Eq.trans ?_ (Gate.gate_ix3 _ _ _ (tok t p) s e).symm
  refine congrArg (fun z => Gate.softmaxRow Gate.lo z e) (funext fun j => ?_)
  unfold Gate.score
  rw [bblk_apply]
  exact congrArg (· + _) (Finset.sum_congr rfl fun k _ => by rw [xblk_apply, wblk_apply])

/-- An index of the result is in point `t`'s block iff each coordinate is in the block's range on its axis. -/
theorem mem_blk (t : Fin cfg0.N) (i : S2048x4x16.Idx) :
    i ∈ ((cfg0.win 3).blk t).view.set ↔ ∀ a : Fin 3, win0_3.index t a * S256x4x16.size a ≤ (i a).val
      ∧ (i a).val < win0_3.index t a * S256x4x16.size a + S256x4x16.size a := by
  show i ∈ ((View.whole main_v1).slice (win0_3.rect t)).set ↔ _
  rw [View.set_slice_whole, Rect.mem_set_unit]
  exact Iff.rfl

/-- Every index of the result is in some point's block: token r is in block r / 256. -/
theorem cover (i : S2048x4x16.Idx) :
    ∃ t : Fin cfg0.N, (cfg0.win 3).flush t = true ∧ i ∈ ((cfg0.win 3).blk t).view.set := by
  have h0 : (i 0).val < 2048 := (i 0).isLt
  have h1 : (i 1).val < 4 := (i 1).isLt
  have h2 : (i 2).val < 16 := (i 2).isLt
  have hN : cfg0.N = 8 := N_0
  let t : Fin cfg0.N := ⟨(i 0).val / 256, by omega⟩
  obtain ⟨-, -, -, -, -, -, -, e7, e8, e9⟩ := idx_facts t
  refine ⟨t, flush0_3 t, ?_⟩
  rw [mem_blk]
  have ht : t.val = (i 0).val / 256 := rfl
  intro a
  match a with
  | ⟨0, _⟩ =>
    show win0_3.index t (0 : Fin 3) * 256 ≤ (i 0).val ∧ (i 0).val < win0_3.index t (0 : Fin 3) * 256 + 256
    rw [e7, ht]; omega
  | ⟨1, _⟩ =>
    show win0_3.index t (1 : Fin 3) * 4 ≤ (i 1).val ∧ (i 1).val < win0_3.index t (1 : Fin 3) * 4 + 4
    rw [e8]; omega
  | ⟨2, _⟩ =>
    show win0_3.index t (2 : Fin 3) * 16 ≤ (i 2).val ∧ (i 2).val < win0_3.index t (2 : Fin 3) * 16 + 16
    rw [e9]; omega

/-- THE RESULT ARRAY after the run is the gate function of the arguments. -/
theorem final (c : Dev nD) : (dats m 0 c).arrAt 3 cfg0.N = gateArr m c :=
  (dats m 0 c).arrAt_eq_of_cover 3 (gateArr m c) (fun t _ => flushed_eq m c t) cover

/-- The run, read: the result at the gate function of the arguments, the arguments unchanged. -/
theorem run : θ_run defs (onTc (τ := τ) (main (F := Ideal))) ⟨m, fun _ => 0, ρ⟩ fun r => ∀ c : Dev nD,
      r.2.mem ((c : Thread nD τ).loc main_v1) = gateArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.RefGate.lean ====
/-
  The reference computes the gate function.

  The reference flattens the tokens to 8192 rows — row r = 4·t + s is token t in batch slot s — multiplies by the
  transposed weights, adds the bias, applies the shifted softmax along each row of sixteen, and folds the rows back to
  [2048, 4, 16]. Stage by stage, at row r = 4·t + s:
    • the score at (r, j) is  (∑ k, x[t, s, k] · W[j, k]) + b[j]: the reshape sends (r, k) to flat position
      r·2048 + k, which is (t, s, k), and the transpose reads W at (j, k);
    • the row maximum is max folded from −∞ over the sixteen scores, and the maximum with the broadcast −∞ taken
      once more changes nothing;
    • the exponentials, their sum from 0, and the quotient are the softmax's;
    • the final reshape sends (t, s, e) to (4·t + s, e).
-/
import proofs.«116019_g36215164240929_cont_8to1_b_1734_13_alg».proof.Proof.Gen.ReferenceIdeal.Read
import proofs.«116019_g36215164240929_cont_8to1_b_1734_13_alg».proof.Proof.LibRowOps
import proofs.«116019_g36215164240929_cont_8to1_b_1734_13_alg».proof.Proof.Softmax
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx

variable (x : (⟨S2048x4x2048, .f32⟩ : BufTy).Contents (Elt Ideal)) (W : (⟨S16x2048, .f32⟩ : BufTy).Contents (Elt Ideal))
  (b : (⟨S16, .f32⟩ : BufTy).Contents (Elt Ideal))

/-- The flattened row of token `t` in batch slot `s`. -/
abbrev row (t : Fin 2048) (s : Fin 4) : Fin 8192 := ⟨t.val * 4 + s.val, by omega⟩

/-- The score stage at (4·t + s, j) is the score of expert j for token t in slot s. -/
theorem score_stage (t : Fin 2048) (s : Fin 4) (j : Fin 16) :
    val_main_v5 (F := Ideal) x W b (ix2 (row t s) j) = Gate.score x W b t s j := by
  rw [val_main_v5_apply]
  show val_main_v2 (F := Ideal) x W (ix2 (row t s) j) + val_main_v4 (F := Ideal) b (ix2 (row t s) j) = _
  rw [val_main_v2_apply, val_main_v4_apply, val_main_v3_apply]
  unfold Gate.score
  refine congr (congrArg _ (Finset.sum_congr rfl fun k _ => ?_)) (congrArg b ?_)
  · rw [val_main_v0_apply, val_main_v1_apply]
    refine congr (congrArg _ (congrArg x ?_)) (congrArg W ?_)
    · funext a; apply Fin.ext
      match a with
      | ⟨0, _⟩ => show ((t.val * 4 + s.val) * 2048 + k.val) / 8192 = t.val; omega
      | ⟨1, _⟩ => show ((t.val * 4 + s.val) * 2048 + k.val) / 2048 % 4 = s.val; omega
      | ⟨2, _⟩ => show ((t.val * 4 + s.val) * 2048 + k.val) % 2048 = k.val; omega
    · funext a; apply Fin.ext
      match a with
      | ⟨0, _⟩ => rfl
      | ⟨1, _⟩ => rfl
  · funext a; apply Fin.ext
    match a with
    | ⟨0, _⟩ => rfl

/-- The row-maximum stage at row 4·t + s: max folded from −∞ over the row's sixteen scores. -/
theorem max_stage (t : Fin 2048) (s : Fin 4) :
    val_main_v8 (F := Ideal) x W b (ix1 (row t s)) = Finset.univ.fold max Gate.lo (Gate.score x W b t s) := by
  rw [val_main_v8_apply]
  show max (val_main_v7 (F := Ideal) (ix1 (row t s))) (val_main_v6 (F := Ideal) x W b (ix1 (row t s))) = _
  rw [val_main_v7_apply]
  unfold val_main_v6
  rw [RowOps.hostReduce_max_row _ _ reducesTo_S8192x16_S8192_d1 (by decide) h_S_ (row t s)]
  rw [show (fun k : Fin 16 => val_main_v5 (F := Ideal) x W b (ix2 (row t s) k)) = Gate.score x W b t s from
    funext fun k => score_stage x W b t s k]
  exact RowOps.max_fold_max_self _ _ _

/-- The exponential stage at (4·t + s, j). -/
theorem exp_stage (t : Fin 2048) (s : Fin 4) (j : Fin 16) :
    val_main_v12 (F := Ideal) x W b (ix2 (row t s) j)
      = Ideal.exp (Gate.score x W b t s j - Finset.univ.fold max Gate.lo (Gate.score x W b t s)) := by
  rw [val_main_v12_apply, val_main_v11_apply, val_main_v10_apply, val_main_v9_apply]
  show Ideal.exp (val_main_v5 (F := Ideal) x W b (ix2 (row t s) j)
    - val_main_v8 (F := Ideal) x W b (idx_main_v9 (idx_main_v10 (ix2 (row t s) j)))) = _
  rw [score_stage, show idx_main_v9 (idx_main_v10 (ix2 (row t s) j)) = ix1 (row t s) from
    funext fun a => Fin.ext (by match a with | ⟨0, _⟩ => rfl), max_stage]

/-- The row-sum stage, broadcast back, at (4·t + s, e). -/
theorem sum_stage (t : Fin 2048) (s : Fin 4) (e : Fin 16) :
    val_main_v15 (F := Ideal) x W b (ix2 (row t s) e)
      = ∑ j : Fin 16, Ideal.exp (Gate.score x W b t s j - Finset.univ.fold max Gate.lo (Gate.score x W b t s)) := by
  rw [val_main_v15_apply, val_main_v14_apply, val_main_v13_apply]
  show Ideal.ofBits .f32 0x00000000#32 + _ = _
  rw [Ideal.ofBits_zero_f32, zero_add]
  refine Finset.sum_congr rfl fun j _ => ?_
  rw [show idx_main_v13 (idx_main_v14 (idx_main_v15 (ix2 (row t s) e))) j = ix2 (row t s) j from
    funext fun a => Fin.ext (by match a with | ⟨0, _⟩ => rfl | ⟨1, _⟩ => rfl)]
  exact exp_stage x W b t s j

/-- THE REFERENCE'S RESULT is the gate function of its arguments. -/
theorem result_eq : val_main_v17 (F := Ideal) x W b = Gate.gate x W b := by
  funext i
  obtain ⟨t, s, e, rfl⟩ : ∃ (t : Fin 2048) (s : Fin 4) (e : Fin 16), i = ix3 t s e := ⟨i 0, i 1, i 2, eq_ix3 i⟩
  rw [val_main_v17_apply, Gate.gate_ix3]
  rw [show idx_main_v17 (ix3 t s e) = ix2 (row t s) e from funext fun a => Fin.ext (by
    match a with
    | ⟨0, _⟩ => show ((t.val * 4 + s.val) * 16 + e.val) / 16 = t.val * 4 + s.val; omega
    | ⟨1, _⟩ => show ((t.val * 4 + s.val) * 16 + e.val) % 16 = e.val; omega)]
  rw [val_main_v16_apply]
  show Ideal.div (val_main_v12 (F := Ideal) x W b (ix2 (row t s) e)) (val_main_v15 (F := Ideal) x W b (ix2 (row t s) e)) = _
  rw [exp_stage, sum_stage]
  rfl

end Cert.ReferenceIdeal.Hand

end
-- ==== Proof.lean ====
/-
  A gating layer against its reference: scores = x · Wᵀ + b over 2048 features, then the softmax over the 16 experts,
  for 2048 tokens in 4 batch slots.

  Both programs compute ONE function of (x, W, b) on the extended reals,
      gate[t, s, e] = exp (score t s e − M) / ∑ j, exp (score t s j − M),
      score t s e = (∑ k, x[t, s, k] · W[e, k]) + b[e],   M = the maximum of the sixteen scores of (t, s), folded from −∞
  (Proof/Softmax.lean). They differ only in arrangement. The kernel walks the tokens in eight tiles of 256 and, inside
  a tile, the four batch slots one after the other, each slot a [256, 2048] × [16, 2048]ᵀ product into a zero
  accumulator; the reference flattens (t, s) to 8192 rows, transposes W, and takes one product. A sum of 2048
  products and a maximum of sixteen numbers do not depend on the order they are taken in, the matrix product into a
  zero accumulator is the plain sum, and the reference's extra maximum with −∞ is the identity on a fold that starts
  from −∞. No law used needs the inputs to be finite, so the precondition is never opened.

  The kernel's side: each stored slice at an index (Proof/TileSoftmax.lean), the four slices as one tile
  (Proof/TileGate.lean), and the tiles as the whole array (Proof/KernelGate.lean), over the generated frame and its
  blockwise value leg. The reference's side: its generated run, read stage by stage (Proof/RefGate.lean). The
  idealization rewrote nothing, so its preservation claim is trivial, and the three frames are the generated ones.
-/
import proofs.«116019_g36215164240929_cont_8to1_b_1734_13_alg».proof.Defs
import proofs.«116019_g36215164240929_cont_8to1_b_1734_13_alg».proof.Proof.Gen.Kernel
import proofs.«116019_g36215164240929_cont_8to1_b_1734_13_alg».proof.Proof.Gen.Kernel.Skeleton
import proofs.«116019_g36215164240929_cont_8to1_b_1734_13_alg».proof.Proof.Gen.Kernel.Launch
import proofs.«116019_g36215164240929_cont_8to1_b_1734_13_alg».proof.Proof.Gen.Kernel.Points
import proofs.«116019_g36215164240929_cont_8to1_b_1734_13_alg».proof.Proof.Gen.Kernel.Frame
import proofs.«116019_g36215164240929_cont_8to1_b_1734_13_alg».proof.Proof.Gen.KernelIdeal
import proofs.«116019_g36215164240929_cont_8to1_b_1734_13_alg».proof.Proof.Gen.KernelIdeal.Skeleton
import proofs.«116019_g36215164240929_cont_8to1_b_1734_13_alg».proof.Proof.Gen.KernelIdeal.Launch
import proofs.«116019_g36215164240929_cont_8to1_b_1734_13_alg».proof.Proof.Gen.KernelIdeal.Points
import proofs.«116019_g36215164240929_cont_8to1_b_1734_13_alg».proof.Proof.Gen.KernelIdeal.Frame
import proofs.«116019_g36215164240929_cont_8to1_b_1734_13_alg».proof.Proof.Gen.ReferenceIdeal
import proofs.«116019_g36215164240929_cont_8to1_b_1734_13_alg».proof.Proof.Gen.Pre_finite_inputs
import proofs.«116019_g36215164240929_cont_8to1_b_1734_13_alg».proof.Proof.Gen.KernelIdeal.Value
import proofs.«116019_g36215164240929_cont_8to1_b_1734_13_alg».proof.Proof.Gen.ReferenceIdeal.Run
import proofs.«116019_g36215164240929_cont_8to1_b_1734_13_alg».proof.Proof.Gen.ReferenceIdeal.Read
import proofs.«116019_g36215164240929_cont_8to1_b_1734_13_alg».proof.Proof.KernelGate
import proofs.«116019_g36215164240929_cont_8to1_b_1734_13_alg».proof.Proof.RefGate
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is straight-line host code: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing to preserve. -/
theorem preserves : Cert.preserves_Kernel_KernelIdeal := trivial

/-- From memories that agree on (x, W, b) both programs end with the gate function of (x, W, b) in their result. -/
theorem algebraic : Cert.algebraic_KernelIdeal_ReferenceIdeal := by
  intro m ρ m' ρ' _ hagree
  refine ⟨fun c => Cert.KernelIdeal.Hand.gateArr m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Hand.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
